-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x2048 : Shape := ⟨2, ![4096, 2048]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel

variable [Facts]

def fn {F : FTy → Type} [FloatOps F] (main_arg0 : FVec F S8x2048x4096 .f32) (main_arg1 : IVec S4096x2048 32) (main_arg2 : IVec S4096 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  main_v3
-- ==== Kernel.lean ====
abbrev S8x2048x4096 : Shape := ⟨3, ![8, 2048, 4096]⟩
abbrev S4096x2048 : Shape := ⟨2, ![4096, 2048]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S16384x4096 : Shape := ⟨2, ![16384, 4096]⟩
abbrev S512x512 : Shape := ⟨2, ![512, 512]⟩
abbrev S2048x512 : Shape := ⟨2, ![2048, 512]⟩
abbrev S1x2048 : Shape := ⟨2, ![1, 2048]⟩
abbrev S512x2048 : Shape := ⟨2, ![512, 2048]⟩

abbrev nBuf : Space → Nat
  | .hbm => 33
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x2048, .i32⟩
  | .hbm, ⟨2, _⟩ => ⟨S4096, .i32⟩
  | .hbm, ⟨3, _⟩ => ⟨S_, .i32⟩
  | .hbm, ⟨4, _⟩ => ⟨S4096x2048, .i32⟩
  | .hbm, ⟨5, _⟩ => ⟨S4096x2048, .i32⟩
  | .hbm, ⟨6, _⟩ => ⟨S4096x2048, .f32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S4096x2048, .f32⟩
  | .hbm, ⟨14, _⟩ => ⟨S4096x2048x1, .f32⟩
  | .hbm, ⟨15, _⟩ => ⟨S4096x2048x1, .f32⟩
  | .hbm, ⟨16, _⟩ => ⟨S4096x2048x2, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S8x2048x4096, .f32⟩
  | .local _ .vmem, ⟨0, _⟩ => ⟨S512x512, .f32⟩
  | .local _ .vmem, ⟨1, _⟩ => ⟨S512x512, .f32⟩
  | .local _ .vmem, ⟨2, _⟩ => ⟨S2048x512, .bf16⟩
  | .local _ .vmem, ⟨3, _⟩ => ⟨S2048x512, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bitsLt_bf16_f32 : FTy.bits .bf16 < FTy.bits .f32
  bcast_S_S4096 : S_.BroadcastsInDim S4096 (![] : Fin 0 → Fin S4096.rank)
  shapeCasts_S4096_S1x4096 : S4096.ShapeCasts S1x4096
  shapeCasts_S8x2048x4096_S16384x4096 : S8x2048x4096.ShapeCasts S16384x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x4096_S8x2048x4096 : S16384x4096.ShapeCasts S8x2048x4096
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x4096.size a
  hwx0_0 : ∀ i : grid0.Coords, EltTy.bits .f32 = 32 ∨ (Rect.block (s := S16384x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x4096.size a
  hwx0_3 : ∀ i : grid0.Coords, EltTy.bits .f32 = 32 ∨ (Rect.block (s := S16384x4096) S512x2048.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v21) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x2048 : Shape := ⟨2, ![4096, 2048]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x2048, .i32⟩
  | .hbm, ⟨2, _⟩ => ⟨S4096, .i32⟩
  | .hbm, ⟨3, _⟩ => ⟨S_, .i32⟩
  | .hbm, ⟨4, _⟩ => ⟨S4096x2048, .i32⟩
  | .hbm, ⟨5, _⟩ => ⟨S4096x2048, .i32⟩
  | .hbm, ⟨6, _⟩ => ⟨S_, .i32⟩
  | .hbm, ⟨7, _⟩ => ⟨S4096x2048, .i32⟩
  | .hbm, ⟨8, _⟩ => ⟨S4096x2048, .i32⟩
  | .hbm, ⟨9, _⟩ => ⟨S_, .i32⟩
  | .hbm, ⟨10, _⟩ => ⟨S4096x2048, .i32⟩
  | .hbm, ⟨11, _⟩ => ⟨S4096x2048, .i32⟩
  | .hbm, ⟨12, _⟩ => ⟨S4096x2048x1, .i32⟩
  | .hbm, ⟨13, _⟩ => ⟨S4096x2048x1, .i32⟩
  | .hbm, ⟨14, _⟩ => ⟨S4096x2048x2, .i32⟩
  | .hbm, ⟨15, _⟩ => ⟨S4096x4096, .i32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S8x2048x4096, .f32⟩
  | .hbm, ⟨28, _⟩ => ⟨S1x1x4096, .f32⟩
  | .hbm, ⟨29, _⟩ => ⟨S8x2048x4096, .f32⟩
  | .hbm, ⟨30, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x4096 : S_.BroadcastsInDim S4096x4096 (![] : Fin 0 → Fin S4096x4096.rank)
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What one grid point leaves behind, as values.

  The kernel body keeps a 512 x 2048 accumulator in a scratch buffer.  At a point whose last grid coordinate is 0 it
  first stores the zero block there; at every point it then loads the accumulator, adds the product of the point's
  activation block with the transpose of its weight block, and stores the sum back; at a point whose last
  coordinate is 7 it finally loads the accumulator once more, adds the bias row to every row, and stores the result
  in the output block.  Each run of the body ends with a list of stored pieces per buffer; here each list is read
  back as one value:  the accumulator ends at  acc' = acc + x . w^T  (with acc = 0 after a reset), and the output
  block, where it is written, at  acc' + bias.
-/
import proofs.«423810_j20555713479187_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- A point that neither resets nor writes out: the accumulator it found, plus the point's product. -/
theorem acc_mid (c : Dev nD) (i : grid0.Coords) (arg3 : Memref sig .tc .vmem S512x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x512 .f32) (x1 : Vec F S2048x512 .bf16) (x2 : Vec F S1x2048 .f32) (xs0 : Vec F S512x2048 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread,
    View.ld_unit_zero (S := S512x512) origin, View.ld_unit_zero (S := S2048x512) origin,
    View.ld_unit_zero (S := S512x2048) origin]

/-- A point that resets: the zero block is stored first and read back, so the accumulator ends at zero plus the
    point's product. -/
theorem acc_first (c : Dev nD) (i : grid0.Coords) (arg3 : Memref sig .tc .vmem S512x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x512 .f32) (x1 : Vec F S2048x512 .bf16) (x2 : Vec F S1x2048 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x2048) origin, View.readCov_unit_zero (S := S512x2048) _ origin]
  simp only [View.readAt_eq_ld, harg3.read_unread, harg4.read_unread,
    View.ld_unit_zero (S := S512x512) origin, View.ld_unit_zero (S := S2048x512) origin]

/-- A point that writes out: the accumulator as at any other point, -/
theorem acc_last (c : Dev nD) (i : grid0.Coords) (arg3 : Memref sig .tc .vmem S512x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S2048x512 .bf16) (x2 : Vec F S1x2048 .f32) (xs0 : Vec F S512x2048 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread,
    View.ld_unit_zero (S := S512x512) origin, View.ld_unit_zero (S := S2048x512) origin,
    View.ld_unit_zero (S := S512x2048) origin]

/-- and the output block: that accumulator, read back after its store, plus the bias row. -/
theorem out_last (c : Dev nD) (i : grid0.Coords) (arg3 : Memref sig .tc .vmem S512x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x512 .f32) (x1 : Vec F S2048x512 .bf16) (x2 : Vec F S1x2048 .f32) (xs0 : Vec F S512x2048 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.ld_unit_zero (S := S512x512) origin, View.ld_unit_zero (S := S2048x512) origin,
    View.ld_unit_zero (S := S512x2048) origin, View.ld_unit_zero (S := S1x2048) origin,
    View.readCov_unit_zero (S := S512x2048) _ origin]

end Cert.KernelIdeal.Acc

end
-- ==== Proof.Payload.lean ====
/-
  The body's arithmetic over the extended reals, one entry at a time.

  Over the extended reals a change of float format is the identity and the matrix unit's product into a zero
  accumulator is the plain sum of products.  So entry (p, q) of the updated accumulator is the old entry plus
  the inner product of row p of the activation block with row q of the weight block (the weights are stored
  output-major, so the product is with the transpose), the reset block is zero everywhere, and entry (p, q) of the
  output block is the accumulator's entry plus entry q of the bias row.
-/
import proofs.«423810_j20555713479187_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Acc

open Cert.KernelIdeal Cert.KernelIdeal.Gen

/-- The product's output rows are the activation block's rows, -/
theorem lhs_row (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
/-- its contracted axis is the activation block's columns, -/
theorem lhs_col (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
/-- the output columns are the weight block's rows, -/
theorem rhs_row (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- and the contracted axis is the weight block's columns too. -/
theorem rhs_col (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- Entry (p, q) of the block product into a zero accumulator: the inner product of row p of the left block with
    row q of the right block. -/
theorem product_apply (l : FVec Ideal S512x512 .bf16) (r : FVec Ideal S2048x512 .bf16) (p : Fin 512) (q : Fin 2048) :
    matmul dot_S512x512_S2048x512_S512x2048_1_1_0_0_n_n none l r (constant (F := Ideal) S512x2048 .f32 0x00000000#32) (ix2 p q)
      = ∑ k : Fin 512, l (ix2 p k) * r (ix2 q k) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k := funext fun a => Fin.ext (by
    match a with
    | ⟨0, _⟩ => exact lhs_row _ _
    | ⟨1, _⟩ => exact (lhs_col _ _).trans hk)
  have er : dot_S512x512_S2048x512_S512x2048_1_1_0_0_n_n.rhsIdx (ix2 p q) ((contrEquiv1 dot_S512x512_S2048x512_S512x2048_1_1_0_0_n_n 512 rfl rfl).symm k) = ix2 q k := funext fun a => Fin.ext (by
    match a with
    | ⟨0, _⟩ => exact rhs_row _ _
    | ⟨1, _⟩ => exact (rhs_col _ _).trans hk)
  rw [el, er]

/-- The reset block is zero at every entry. -/
theorem reset_apply (y : S512x2048.Idx) : (k0_pay1 (F := Ideal)) y = 0 := by
  unfold k0_pay1
  rw [shapeCast_self]
  exact Ideal.ofBits_zero_f32

/-- The updated accumulator at (p, q). -/
theorem update_apply (x : FVec Ideal S512x512 .f32) (w : FVec Ideal S2048x512 .bf16) (acc : FVec Ideal S512x2048 .f32)
    (p : Fin 512) (q : Fin 2048) :
    k0_pay2 (F := Ideal) x w acc (ix2 p q) = acc (ix2 p q) + ∑ k : Fin 512, x (ix2 p k) * w (ix2 q k) := by
  unfold k0_pay2
  rw [shapeCast_self, shapeCast_self, shapeCast_self]
  refine (addf_apply _ _ _).trans ?_
  refine congrArg (acc (ix2 p q) + ·) ?_
  exact product_apply _ _ p q

/-- The output block at (p, q). -/
theorem output_apply (acc : FVec Ideal S512x2048 .f32) (b : FVec Ideal S1x2048 .f32) (p : Fin 512) (q : Fin 2048) :
    k0_pay3 (F := Ideal) acc b (ix2 p q) = acc (ix2 p q) + b (ix2 (0 : Fin 1) q) := by
  unfold k0_pay3
  rw [shapeCast_self]
  refine (addf_apply _ _ _).trans ?_
  refine congrArg (acc (ix2 p q) + ·) ?_
  exact broadcastTo_1b_ab_apply _ _ p q

end Cert.KernelIdeal.Acc

end
-- ==== Proof.LibDotUpTo.lean ====
/-
  Inner products over an initial stretch of the contraction axis.

  The kernel builds the inner product of a row of the activations with a row of the weights in eight stretches of
  512 columns; the reference takes it over all 4096 columns at once.  Both are sums of the same 4096 products of
  extended reals, and addition of extended reals is commutative and associative, so all that is needed is: the sum
  over the first `n + B` columns is the sum over the first `n` followed by `B` more terms, and the sum over all the
  columns is the sum over the column index.  Arrays are read at natural-number coordinates (zero outside the array),
  which keeps the bookkeeping of block offsets in plain arithmetic.
-/
import Idealize.ShloMosaic.Lib.ValueIdx
import Mathlib.Algebra.BigOperators.Intervals
import Mathlib.Algebra.BigOperators.Fin

noncomputable section

open scoped BigOperators
open Idealize.ShloMosaic Idealize.ShloMosaic.ValueIdx

namespace Cert.QLinear

/-- A two-dimensional array of extended reals read at natural-number coordinates: zero outside the array. -/
def at2 {a b : ℕ} (X : (⟨2, ![a, b]⟩ : Shape).Idx → EReal) (r k : ℕ) : EReal :=
  if h : r < a ∧ k < b then X (ix2 ⟨r, h.1⟩ ⟨k, h.2⟩) else 0

/-- Inside the array it is the entry. -/
theorem at2_of_lt {a b : ℕ} (X : (⟨2, ![a, b]⟩ : Shape).Idx → EReal) (r k : ℕ) (hr : r < a) (hk : k < b) :
    at2 X r k = X (ix2 ⟨r, hr⟩ ⟨k, hk⟩) := dif_pos ⟨hr, hk⟩

/-- The inner product of row `r` of `X` with row `o` of `W` over the first `n` columns. -/
def dotUpTo {a b K : ℕ} (X : (⟨2, ![a, K]⟩ : Shape).Idx → EReal) (W : (⟨2, ![b, K]⟩ : Shape).Idx → EReal)
    (r o n : ℕ) : EReal :=
  ∑ k ∈ Finset.range n, at2 X r k * at2 W o k

/-- Over no column it is zero. -/
theorem dotUpTo_zero {a b K : ℕ} (X : (⟨2, ![a, K]⟩ : Shape).Idx → EReal) (W : (⟨2, ![b, K]⟩ : Shape).Idx → EReal)
    (r o : ℕ) : dotUpTo X W r o 0 = 0 := by
  unfold dotUpTo; exact Finset.sum_range_zero _

/-- A stretch of `B` more columns adds their products. -/
theorem dotUpTo_add {a b K : ℕ} (X : (⟨2, ![a, K]⟩ : Shape).Idx → EReal) (W : (⟨2, ![b, K]⟩ : Shape).Idx → EReal)
    (r o n B : ℕ) :
    dotUpTo X W r o (n + B) = dotUpTo X W r o n + ∑ l : Fin B, at2 X r (n + l.val) * at2 W o (n + l.val) := by
  unfold dotUpTo
  rw [Finset.sum_range_add]
  refine congrArg (_ + ·) ?_
  exact Finset.sum_range fun x => at2 X r (n + x) * at2 W o (n + x)

/-- Over all the columns it is the sum over the column index. -/
theorem dotUpTo_full {a b K : ℕ} (X : (⟨2, ![a, K]⟩ : Shape).Idx → EReal) (W : (⟨2, ![b, K]⟩ : Shape).Idx → EReal)
    (r o : ℕ) (hr : r < a) (ho : o < b) :
    dotUpTo X W r o K = ∑ k : Fin K, X (ix2 ⟨r, hr⟩ k) * W (ix2 ⟨o, ho⟩ k) := by
  unfold dotUpTo
  refine (Finset.sum_range fun x => at2 X r x * at2 W o x).trans ?_
  refine Finset.sum_congr rfl fun k _ => ?_
  rw [at2_of_lt X r k.val hr k.isLt, at2_of_lt W o k.val ho k.isLt]

end Cert.QLinear

end
-- ==== Proof.Accum.lean ====
/-
  The accumulator over the grid.

  The 512 grid points are counted row-major over the 32 x 2 x 8 grid: point t works on rows [t / 16 * 512, +512) of
  the activations, on rows [(t / 8) mod 2 * 2048, +2048) of the weights (which are the output's columns), and on the
  columns [t mod 8 * 512, +512) of both.  Within a run of eight consecutive points only the column stretch moves,
  the accumulator is reset at the run's first point and written out (with the bias added) at its last.  Hence after
  point t the accumulator's entry (p, q) is the inner product of the activations' row with the weights' row over
  the first (t mod 8 + 1) * 512 columns, by induction along the run; and what the run's last point writes out is the
  inner product over all 4096 columns plus the bias entry.
-/
import proofs.«423810_j20555713479187_2_alg».proof.Proof.Pieces
import proofs.«423810_j20555713479187_2_alg».proof.Proof.Payload
import proofs.«423810_j20555713479187_2_alg».proof.Proof.LibDotUpTo

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.QLinear

variable (m : (ℓ : Loc nD τ sig) → Buf (Elt Ideal) ℓ)

/-- The three operand arrays as the kernel region finds them: the activations as a 16384 x 4096 matrix, the
    dequantized weights (output-major) and the bias as a 1 x 4096 row. -/
abbrev xarr (c : Dev nD) : FVec Ideal S16384x4096 .f32 := V m c main_v21
abbrev warr (c : Dev nD) : FVec Ideal S4096x4096 .bf16 := V m c main_v16
abbrev barr (c : Dev nD) : FVec Ideal S1x4096 .f32 := V m c main_v20

/-- The blocks of them a grid point works on. -/
abbrev xblk (c : Dev nD) (t : Fin cfg0.N) : FVec Ideal S512x512 .f32 := iblk m c 0 t
abbrev wblk (c : Dev nD) (t : Fin cfg0.N) : FVec Ideal S2048x512 .bf16 := iblk m c 1 t
abbrev bblk (c : Dev nD) (t : Fin cfg0.N) : FVec Ideal S1x2048 .f32 := iblk m c 2 t

/-- Point t of the 32 x 2 x 8 grid, counted row-major, works on row block t / 16 of the activations, on row block
    (t / 8) mod 2 of the weights and of the output's columns, and on column block t mod 8 of the contraction. -/
theorem block_index : ∀ t : Fin cfg0.N,
    win0_0.index t (0 : Fin 2) = t.val / 16 ∧ win0_0.index t (1 : Fin 2) = t.val % 8
    ∧ win0_1.index t (0 : Fin 2) = t.val / 8 % 2 ∧ win0_1.index t (1 : Fin 2) = t.val % 8
    ∧ win0_2.index t (0 : Fin 2) = 0 ∧ win0_2.index t (1 : Fin 2) = t.val / 8 % 2
    ∧ win0_3.index t (0 : Fin 2) = t.val / 16 ∧ win0_3.index t (1 : Fin 2) = t.val / 8 % 2 :=
  (by decide +kernel : ∀ t : Fin grid0.N, _)

theorem xblk_apply (c : Dev nD) (t : Fin cfg0.N) (p l : Fin 512) :
    xblk m c t (ix2 p l) = at2 (xarr m c) (t.val / 16 * 512 + p.val) (t.val % 8 * 512 + l.val) := by
  have hN : t.val < 512 := lt_of_lt_of_eq t.isLt (show cfg0.N = 512 from N_0)
  have hp := p.isLt
  have hl := l.isLt
  rw [at2_of_lt _ _ _ (by omega) (by omega)]
  unfold xblk iblk
  rw [View.read_apply]
  show V m c main_v21 _ = V m c main_v21 _
  refine congrArg (V m c main_v21) (funext fun a => Fin.ext ?_)
  match a with
  | ⟨0, _⟩ =>
    show win0_0.index t (0 : Fin 2) * 512 + 1 * p.val = t.val / 16 * 512 + p.val
    rw [(block_index t).1]; omega
  | ⟨1, _⟩ =>
    show win0_0.index t (1 : Fin 2) * 512 + 1 * l.val = t.val % 8 * 512 + l.val
    rw [(block_index t).2.1]; omega

theorem wblk_apply (c : Dev nD) (t : Fin cfg0.N) (q : Fin 2048) (l : Fin 512) :
    wblk m c t (ix2 q l) = at2 (warr m c) (t.val / 8 % 2 * 2048 + q.val) (t.val % 8 * 512 + l.val) := by
  have hN : t.val < 512 := lt_of_lt_of_eq t.isLt (show cfg0.N = 512 from N_0)
  have hq := q.isLt
  have hl := l.isLt
  rw [at2_of_lt _ _ _ (by omega) (by omega)]
  unfold wblk iblk
  rw [View.read_apply]
  show V m c main_v16 _ = V m c main_v16 _
  refine congrArg (V m c main_v16) (funext fun a => Fin.ext ?_)
  match a with
  | ⟨0, _⟩ =>
    show win0_1.index t (0 : Fin 2) * 2048 + 1 * q.val = t.val / 8 % 2 * 2048 + q.val
    rw [(block_index t).2.2.1]; omega
  | ⟨1, _⟩ =>
    show win0_1.index t (1 : Fin 2) * 512 + 1 * l.val = t.val % 8 * 512 + l.val
    rw [(block_index t).2.2.2.1]; omega

theorem bblk_apply (c : Dev nD) (t : Fin cfg0.N) (q : Fin 2048) :
    bblk m c t (ix2 (0 : Fin 1) q) = at2 (barr m c) 0 (t.val / 8 % 2 * 2048 + q.val) := by
  have hN : t.val < 512 := lt_of_lt_of_eq t.isLt (show cfg0.N = 512 from N_0)
  have hq := q.isLt
  rw [at2_of_lt _ _ _ (by omega) (by omega)]
  unfold bblk iblk
  rw [View.read_apply]
  show V m c main_v20 _ = V m c main_v20 _
  refine congrArg (V m c main_v20) (funext fun a => Fin.ext ?_)
  match a with
  | ⟨0, _⟩ =>
    show win0_2.index t (0 : Fin 2) * 1 + 1 * 0 = 0
    rw [(block_index t).2.2.2.2.1]
  | ⟨1, _⟩ =>
    show win0_2.index t (1 : Fin 2) * 2048 + 1 * q.val = t.val / 8 % 2 * 2048 + q.val
    rw [(block_index t).2.2.2.2.2.1]; omega

/-- The inner product so far, for the entry (p, q) of the accumulator at point n: row n / 16 * 512 + p of the
    activations with row (n / 8) mod 2 * 2048 + q of the weights, over the first (n mod 8 + 1) * 512 columns. -/
abbrev partialDot (c : Dev nD) (n : ℕ) (p : Fin 512) (q : Fin 2048) : EReal :=
  dotUpTo (xarr m c) (warr m c) (n / 16 * 512 + p.val) (n / 8 % 2 * 2048 + q.val) ((n % 8 + 1) * 512)

/-- The product a point adds is the next stretch of 512 columns of that inner product. -/
theorem stretch (c : Dev nD) (t : Fin cfg0.N) (p : Fin 512) (q : Fin 2048) :
    ∑ k : Fin 512, xblk m c t (ix2 p k) * wblk m c t (ix2 q k)
      = ∑ l : Fin 512, at2 (xarr m c) (t.val / 16 * 512 + p.val) (t.val % 8 * 512 + l.val)
          * at2 (warr m c) (t.val / 8 % 2 * 2048 + q.val) (t.val % 8 * 512 + l.val) :=
  Finset.sum_congr rfl fun l _ => by rw [xblk_apply, wblk_apply]

/-- One point: if the accumulator held the inner product so far after the point before (when there is one in the same
    run of eight), it holds it after this one. -/
theorem acc_step (c : Dev nD) (t : Fin cfg0.N)
    (hprev : t.val % 8 ≠ 0 → ∀ (p : Fin 512) (q : Fin 2048),
      ((outsAt0 m c (t.val - 1) (Nat.lt_of_le_of_lt (Nat.sub_le _ _) t.isLt)).2 : FVec Ideal S512x2048 .f32) (ix2 p q)
        = partialDot m c (t.val - 1) p q)
    (p : Fin 512) (q : Fin 2048) :
    ((outsAt0 m c t.val t.isLt).2 : FVec Ideal S512x2048 .f32) (ix2 p q) = partialDot m c t.val p q := by
  have hN : t.val < 512 := lt_of_lt_of_eq t.isLt (show cfg0.N = 512 from N_0)
  by_cases h0 : t.val % 8 = 0
  · have h1 : ¬t.val % 8 = 7 := by omega
    rw [outsAt0_A m c t h0 h1]
    dsimp only
    refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (xblk m c t) (wblk m c t) (bblk m c t)) (ix2 p q)).trans ?_
    refine (update_apply (xblk m c t) (wblk m c t) (k0_pay1 (F := Ideal)) p q).trans ?_
    rw [reset_apply, zero_add, stretch]
    unfold partialDot
    rw [show (t.val % 8 + 1) * 512 = 0 + 512 from by omega, dotUpTo_add, dotUpTo_zero, zero_add, h0]
  · have ih := hprev h0 p q
    have e0 : (t.val - 1) / 16 * 512 + p.val = t.val / 16 * 512 + p.val := by omega
    have e1 : (t.val - 1) / 8 % 2 * 2048 + q.val = t.val / 8 % 2 * 2048 + q.val := by omega
    have e2 : ((t.val - 1) % 8 + 1) * 512 = t.val % 8 * 512 := by omega
    have e3 : (t.val % 8 + 1) * 512 = t.val % 8 * 512 + 512 := by omega
    unfold partialDot at ih ⊢
    rw [e0, e1, e2] at ih
    rw [e3, dotUpTo_add, ← ih, ← stretch]
    by_cases h1 : t.val % 8 = 7
    · rw [outsAt0_C m c t h0 h1]
      dsimp only
      refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 p q)).trans ?_
      exact update_apply (xblk m c t) (wblk m c t) _ p q
    · rw [outsAt0_B m c t h0 h1]
      dsimp only
      refine (congrFun (acc_mid (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (xblk m c t) (wblk m c t) (bblk m c t) (outsAt0 m c (t.val - 1) (Nat.lt_of_le_of_lt (Nat.sub_le _ _) t.isLt)).2) (ix2 p q)).trans ?_
      exact update_apply (xblk m c t) (wblk m c t) _ p q

/-- So after every point the accumulator holds the inner product so far. -/
theorem acc_at (c : Dev nD) (n : ℕ) : ∀ (h : n < cfg0.N) (p : Fin 512) (q : Fin 2048),
    ((outsAt0 m c n h).2 : FVec Ideal S512x2048 .f32) (ix2 p q) = partialDot m c n p q := by
  induction n using Nat.strong_induction_on with
  | _ n ih =>
    intro h p q
    exact acc_step m c ⟨n, h⟩ (fun hn p q => ih (n - 1) (by have : n % 8 ≠ 0 := hn; omega) _ p q) p q

/-- A point that writes out leaves in the output block the whole inner product plus the bias entry. -/
theorem out_at (c : Dev nD) (t : Fin cfg0.N) (h1 : t.val % 8 = 7) (p : Fin 512) (q : Fin 2048) :
    ((outsAt0 m c t.val t.isLt).1 : FVec Ideal S512x2048 .f32) (ix2 p q)
      = dotUpTo (xarr m c) (warr m c) (t.val / 16 * 512 + p.val) (t.val / 8 % 2 * 2048 + q.val) 4096
        + at2 (barr m c) 0 (t.val / 8 % 2 * 2048 + q.val) := by
  have hN : t.val < 512 := lt_of_lt_of_eq t.isLt (show cfg0.N = 512 from N_0)
  have h0 : ¬t.val % 8 = 0 := by omega
  have hacc := acc_at m c t.val t.isLt p q
  rw [outsAt0_C m c t h0 h1] at hacc ⊢
  dsimp only at hacc ⊢
  refine (congrFun (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 p q)).trans ?_
  refine (output_apply _ (bblk m c t) p q).trans ?_
  rw [bblk_apply]
  refine congrArg (· + _) ?_
  refine ((congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (xblk m c t) (wblk m c t) (bblk m c t) (outsAt0 m c (t.val - 1) (Nat.lt_of_le_of_lt (Nat.sub_le _ _) t.isLt)).2) (ix2 p q)).symm.trans hacc).trans ?_
  unfold partialDot
  rw [show (t.val % 8 + 1) * 512 = 4096 from by omega]

end Cert.KernelIdeal.Acc

end
-- ==== Proof.Result.lean ====
/-
  What the kernel leaves in its result.

  A run of eight consecutive grid points ends by writing out one 512 x 2048 block of the result matrix: by the
  accumulator's invariant that block holds, at (p, q), the inner product over all 4096 columns of the activations'
  row with the weights' row, plus the bias entry — that is, the block of ONE 16384 x 4096 matrix  x . w^T + bias.
  The 64 writing points' blocks tile the matrix, so the region's result array ends holding it, and the one host
  operation after the region reshapes it to 8 x 2048 x 4096.
-/
import proofs.«423810_j20555713479187_2_alg».proof.Proof.Accum
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.QLinear

variable (m : (ℓ : Loc nD τ sig) → Buf (Elt Ideal) ℓ) (ρ : Dev nD → PrngReg)

/-- Entry (r, o) of the product matrix with the bias added, at natural-number coordinates. -/
def outAt (c : Dev nD) (r o : ℕ) : EReal :=
  dotUpTo (xarr m c) (warr m c) r o 4096 + at2 (barr m c) 0 o

/-- The 16384 x 4096 matrix the kernel region leaves in its result array. -/
def outArr (c : Dev nD) : FVec Ideal S16384x4096 .f32 := fun j => outAt m c (j 0).val (j 1).val

/-- What a writing point writes back is its block of that matrix. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  show (cfg0.win 3).cut (grid0.coords t) ((dats m 0 c).after 3 t) = _
  rw [after0_3]
  funext y
  rw [View.read_apply]
  show ((outsAt0 m c t.val t.isLt).1 : FVec Ideal S512x2048 .f32) y = outArr m c (((cfg0.win 3).blk t).view.emb y)
  have hy : (y : S512x2048.Idx) = ix2 (y 0) (y 1) := eq_ix2 (n0 := 512) (n1 := 2048) y
  have e0 : ((((cfg0.win 3).blk t).view.emb y) 0).val = t.val / 16 * 512 + (y 0).val := by
    show win0_3.index t (0 : Fin 2) * 512 + 1 * (y 0).val = _
    rw [(block_index t).2.2.2.2.2.2.1]; omega
  have e1 : ((((cfg0.win 3).blk t).view.emb y) 1).val = t.val / 8 % 2 * 2048 + (y 1).val := by
    show win0_3.index t (1 : Fin 2) * 2048 + 1 * (y 1).val = _
    rw [(block_index t).2.2.2.2.2.2.2]; omega
  unfold outArr
  rw [e0, e1]
  exact (congrArg ((outsAt0 m c t.val t.isLt).1 : FVec Ideal S512x2048 .f32) hy).trans (out_at m c t h7 (y 0) (y 1))

/-- An index of the result array is in point t's block iff each coordinate is in the block's range. -/
theorem mem_out_blk (t : Fin cfg0.N) (i : S16384x4096.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v22).slice (win0_3.rect t)).set ↔ _
  rw [View.set_slice_whole, Rect.mem_set_unit]
  exact Iff.rfl

/-- Every entry of the result array is written by the last point of the run of eight for its row and column block. -/
theorem out_cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 512 := N_0
  obtain ⟨t, ht⟩ : ∃ t : Fin cfg0.N, t.val = ((i 0).val / 512 * 2 + (i 1).val / 2048) * 8 + 7 :=
    ⟨⟨((i 0).val / 512 * 2 + (i 1).val / 2048) * 8 + 7, by rw [hN]; omega⟩, rfl⟩
  refine ⟨t, (flush0_3 t).mpr (by omega), ?_⟩
  rw [mem_out_blk]
  intro a
  match a with
  | ⟨0, _⟩ =>
    show win0_3.index t (0 : Fin 2) * 512 ≤ (i 0).val ∧ (i 0).val < win0_3.index t (0 : Fin 2) * 512 + 512
    rw [(block_index t).2.2.2.2.2.2.1]; omega
  | ⟨1, _⟩ =>
    show win0_3.index t (1 : Fin 2) * 2048 ≤ (i 1).val ∧ (i 1).val < win0_3.index t (1 : Fin 2) * 2048 + 2048
    rw [(block_index t).2.2.2.2.2.2.2]; omega

/-- So the region's result array ends holding the matrix. -/
theorem out_final (c : Dev nD) : (dats m 0 c).arrAt 3 cfg0.N = outArr m c :=
  (dats m 0 c).arrAt_eq_of_cover 3 (outArr m c) (flushed_eq m c) out_cover

/-- The one host operation after the region reshapes it to the result's 8 x 2048 x 4096. -/
theorem tail_eq (c : Dev nD) :
    Pipeline.afterTail₀ cfgs (dats m) 0 (V0 m) [hostOps1] c main_v23
      = shapeCast S8x2048x4096 (outArr m c) shapeCasts_S16384x4096_S8x2048x4096 := by
  unfold Pipeline.afterTail₀
  show StableHlo.after hostOps1 _ (Proc.devRef .tc main_v23) = _
  after_results
  rw [show Pipeline.withArrays (cfgs 0).spec c (V0 m c) (fun w => (dats m 0 c).arrAt w (cfgs 0).N) (Proc.devRef .tc main_v22)
      = outArr m c from (Pipeline.withArrays_arr spec0 launch0.win.arr_inj c _ _ 3).trans (out_final m c)]
  rfl

/-- The kernel's run, read: the result at the reshaped matrix, the three arguments as launched. -/
theorem run : θ_run defs (onTc (τ := τ) (main (F := Ideal))) ⟨m, fun _ => 0, ρ⟩ fun r => ∀ c : Dev nD,
      r.2.mem ((c.tc : Thread nD τ).loc main_v23) = shapeCast S8x2048x4096 (outArr m c) shapeCasts_S16384x4096_S8x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v23 (Pipeline.mem_restRefs_of main_v23 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Acc

end
-- ==== Proof.RefSide.lean ====
/-
  The reference at an entry.

  The reference computes  einsum('bsi,oi->bso', x, W) + b : at (a, b, o) the inner product over all 4096 columns of
  row (a, b) of the activations with row o of the dequantized weights, plus entry o of the dequantized bias.  Read
  off the reference's operations one at a time.
-/
import proofs.«423810_j20555713479187_2_alg».proof.Proof.Gen.ReferenceIdeal.Run
import proofs.«423810_j20555713479187_2_alg».proof.Proof.Gen.ReferenceIdeal.Read

noncomputable section

open Idealize.ShloMosaic Idealize.ShloMosaic.ValueIdx

namespace Cert.ReferenceIdeal.Entry

open Cert.ReferenceIdeal Cert.ReferenceIdeal.Read

/-- The reference's result at (a, b, o). -/
theorem result_apply (x : (⟨S8x2048x4096, .f32⟩ : BufTy).Contents (Elt Ideal)) (pw : (⟨S4096x2048, .i32⟩ : BufTy).Contents (Elt Ideal))
    (qb : (⟨S4096, .i32⟩ : BufTy).Contents (Elt Ideal)) (a : Fin 8) (b : Fin 2048) (o : Fin 4096) :
    val_main_v21 (F := Ideal) x pw qb (ix3 a b o)
      = (∑ k : Fin 4096, x (ix3 a b k) * val_main_v14 (F := Ideal) pw (ix2 o k)) + val_main_v17 (F := Ideal) qb (ix1 o) := by
  rw [val_main_v21_apply, val_main_v18_apply, val_main_v20_apply, val_main_v19_apply]
  have el : ∀ k, lidx_main_v18 (ix3 a b o) k = ix3 a b k := fun k => funext fun d => by
    match d with
    | ⟨0, _⟩ => rfl
    | ⟨1, _⟩ => rfl
    | ⟨2, _⟩ => rfl
  have er : ∀ k, ridx_main_v18 (ix3 a b o) k = ix2 o k := fun k => funext fun d => by
    match d with
    | ⟨0, _⟩ => rfl
    | ⟨1, _⟩ => rfl
  have eb : idx_main_v19 (idx_main_v20 (ix3 a b o)) = ix1 o := funext fun d => by
    match d with
    | ⟨0, _⟩ => rfl
  simp only [el, er, eb]
  rfl

end Cert.ReferenceIdeal.Entry

end
-- ==== Proof.LibJoinMap.lean ====
/-
  Converting nibbles to floats commutes with interleaving them.

  The two programs dequantize the packed weights in a different order: the kernel converts the low and the high
  nibble arrays to floats and then interleaves them (stack on a new last axis, reshape to 4096 x 4096), the
  reference interleaves the integer nibbles and converts afterwards.  Interleaving only moves entries around (each
  entry of the result is one entry of one of the two operands) and the conversion acts entry by entry, so the two
  orders give the same array, whatever the float instance.
-/
import Idealize.ShloMosaic.Lib.ValueIdx
import Idealize.ShloMosaic.Lib.Pipeline.Value

noncomputable section

open Idealize.ShloMosaic Idealize.ShloMosaic.ValueIdx

namespace Cert.QLinear

variable {F : FTy → Type} [FloatOps F]

/-- Two arrays with a trailing unit axis joined along it, then an entrywise map: the map can be applied to the two
    operands first.  Entry (u, v, 0) comes from the first operand and entry (u, v, 1) from the second, both at
    (u, v, 0). -/
theorem join_map {α β : Type} (f : α → β) {a b : ℕ}
    (h : Shape.Concatenates [(⟨3, ![a, b, 1]⟩ : Shape), (⟨3, ![a, b, 1]⟩ : Shape)] (⟨3, ![a, b, 2]⟩ : Shape) 2)
    (x y : (⟨3, ![a, b, 1]⟩ : Shape).Idx → α) (j : (⟨3, ![a, b, 2]⟩ : Shape).Idx) :
    concatenate (⟨3, ![a, b, 2]⟩ : Shape) 2 [⟨(⟨3, ![a, b, 1]⟩ : Shape), fun i => f (x i)⟩, ⟨(⟨3, ![a, b, 1]⟩ : Shape), fun i => f (y i)⟩] h j
      = f (concatenate (⟨3, ![a, b, 2]⟩ : Shape) 2 [⟨(⟨3, ![a, b, 1]⟩ : Shape), x⟩, ⟨(⟨3, ![a, b, 1]⟩ : Shape), y⟩] h j) := by
  obtain ⟨u, v, w, rfl⟩ : ∃ (u : Fin a) (v : Fin b) (w : Fin 2), j = ix3 u v w := ⟨j 0, j 1, j 2, eq_ix3 j⟩
  have hw : w.val = 0 ∨ w.val = 1 := by omega
  rcases hw with hw | hw
  · have hi : ∀ d : Fin 3, ((ix3 u v (0 : Fin 1)) d).val = ((ix3 u v w) (d.cast rfl)).val := fun d => by
      match d with
      | ⟨0, _⟩ => rfl
      | ⟨1, _⟩ => rfl
      | ⟨2, _⟩ => exact hw.symm
    rw [concatenate_pair_apply_left 2 _ _ h (ix3 u v w) rfl (ix3 u v (0 : Fin 1)) hi,
      concatenate_pair_apply_left 2 x y h (ix3 u v w) rfl (ix3 u v (0 : Fin 1)) hi]
  · have hi : ∀ d : Fin 3, d.cast rfl ≠ (2 : Fin 3) → ((ix3 u v (0 : Fin 1)) d).val = ((ix3 u v w) (d.cast rfl)).val := fun d hd => by
      match d with
      | ⟨0, _⟩ => rfl
      | ⟨1, _⟩ => rfl
      | ⟨2, _⟩ => exact absurd rfl hd
    have ha : ((ix3 u v (0 : Fin 1)) ((2 : Fin 3).cast rfl)).val + (⟨3, ![a, b, 1]⟩ : Shape).size ((2 : Fin 3).cast rfl) = ((ix3 u v w) (2 : Fin 3)).val := by
      show 0 + 1 = w.val
      omega
    rw [concatenate_pair_apply_right 2 _ _ h (ix3 u v w) rfl rfl (ix3 u v (0 : Fin 1)) hi ha,
      concatenate_pair_apply_right 2 x y h (ix3 u v w) rfl rfl (ix3 u v (0 : Fin 1)) hi ha]

/-- The dequantization's layout step: low and high nibbles converted, given a trailing unit axis, joined along it and
    reshaped — the conversion can as well come last. -/
theorem interleave_sitofp {a b : ℕ} {t : Shape}
    (hb : (⟨2, ![a, b]⟩ : Shape).BroadcastsInDim (⟨3, ![a, b, 1]⟩ : Shape) (![0, 1] : Fin 2 → Fin 3))
    (hc : Shape.Concatenates [(⟨3, ![a, b, 1]⟩ : Shape), (⟨3, ![a, b, 1]⟩ : Shape)] (⟨3, ![a, b, 2]⟩ : Shape) 2)
    (hs : (⟨3, ![a, b, 2]⟩ : Shape).ShapeCasts t)
    (lo hi : IVec (⟨2, ![a, b]⟩ : Shape) 32) :
    shapeCast t (concatenate (⟨3, ![a, b, 2]⟩ : Shape) 2
        [⟨(⟨3, ![a, b, 1]⟩ : Shape), broadcastInDim (⟨3, ![a, b, 1]⟩ : Shape) ![0, 1] hb (sitofp .f32 lo : FVec F _ .f32)⟩,
         ⟨(⟨3, ![a, b, 1]⟩ : Shape), broadcastInDim (⟨3, ![a, b, 1]⟩ : Shape) ![0, 1] hb (sitofp .f32 hi : FVec F _ .f32)⟩] hc) hs
      = (sitofp .f32 (shapeCast t (concatenate (⟨3, ![a, b, 2]⟩ : Shape) 2
        [⟨(⟨3, ![a, b, 1]⟩ : Shape), broadcastInDim (⟨3, ![a, b, 1]⟩ : Shape) ![0, 1] hb lo⟩,
         ⟨(⟨3, ![a, b, 1]⟩ : Shape), broadcastInDim (⟨3, ![a, b, 1]⟩ : Shape) ![0, 1] hb hi⟩] hc) hs) : FVec F t .f32) := by
  funext i
  unfold shapeCast
  exact join_map (FloatOps.sitofp (F := F) .f32) hc _ _ _

end Cert.QLinear

end
-- ==== Proof.Bridge.lean ====
/-
  The two results are one function of the arguments.

  Both programs compute  out[a, b, o] = sum_k x[a, b, k] * W[o, k] + bias[o]  over the extended reals, with
  W = 0.01 * (q - 8) for the interleaved nibbles q of the packed weights and bias = 0.00047 * float(quantized_bias)
  (the same three float literals in both).  The kernel's program differs from the reference's in three places that do
  not matter there: it converts the nibbles to floats before interleaving them (the conversion is entry by entry),
  it narrows the weights to bf16 (the identity on the extended reals), and it flattens the activations' two leading
  axes around the kernel region (a renaming of rows).  So the operand arrays the region finds are the reference's
  own intermediate values, and the kernel's result read at (a, b, o) is the reference's formula.
-/
import proofs.«423810_j20555713479187_2_alg».proof.Proof.Result
import proofs.«423810_j20555713479187_2_alg».proof.Proof.RefSide
import proofs.«423810_j20555713479187_2_alg».proof.Proof.LibJoinMap
import Idealize.ShloMosaic.Lib.ValueLayout

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.KernelIdeal.Acc Cert.QLinear

variable (m : (ℓ : Loc nD τ sig) → Buf (Elt Ideal) ℓ)

/-- The three arguments as launched, typed as arrays. -/
abbrev xin (c : Dev nD) : (⟨S8x2048x4096, .f32⟩ : BufTy).Contents (Elt Ideal) := m ((c : Thread nD τ).loc main_arg0)
abbrev pwin (c : Dev nD) : (⟨S4096x2048, .i32⟩ : BufTy).Contents (Elt Ideal) := m ((c : Thread nD τ).loc main_arg1)
abbrev qbin (c : Dev nD) : (⟨S4096, .i32⟩ : BufTy).Contents (Elt Ideal) := m ((c : Thread nD τ).loc main_arg2)

/-- The region finds the activations flattened to 16384 x 4096, -/
theorem xarr_eq (c : Dev nD) :
    xarr m c = shapeCast S16384x4096 (xin m c) shapeCasts_S8x2048x4096_S16384x4096 := by
  show StableHlo.after hostOps0 (fun b => m (c, b)) (Proc.devRef .tc main_v21) = _
  after_results
  rfl

/-- the dequantized bias as a one-row matrix, -/
theorem barr_eq (c : Dev nD) :
    barr m c = shapeCast S1x4096 (Cert.ReferenceIdeal.Read.val_main_v17 (F := Ideal) (qbin m c)) shapeCasts_S4096_S1x4096 := by
  show StableHlo.after hostOps0 (fun b => m (c, b)) (Proc.devRef .tc main_v20) = _
  after_results
  rfl

/-- and the weights dequantized as the reference dequantizes them: the kernel's program converts the nibbles before
    interleaving them and narrows the product to bf16, which over the extended reals changes nothing. -/
theorem warr_eq (c : Dev nD) :
    warr m c = Cert.ReferenceIdeal.Read.val_main_v14 (F := Ideal) (pwin m c) := by
  show StableHlo.after hostOps0 (fun b => m (c, b)) (Proc.devRef .tc main_v16) = _
  after_results
  funext i
  refine (truncf_apply (ψ := .bf16) _ bitsLt_bf16_f32 i).trans ?_
  refine (mulf_apply _ _ i).trans ?_
  refine (congrArg (_ * ·) (subf_apply _ _ i)).trans ?_
  refine Eq.trans ?_ (Cert.ReferenceIdeal.Read.val_main_v14_apply _ i).symm
  refine Eq.trans ?_ (congrArg (FloatOps.mulf _) (Cert.ReferenceIdeal.Read.val_main_v12_apply _ i)).symm
  refine Eq.trans ?_ (congrArg (fun z => FloatOps.mulf _ (FloatOps.subf z _)) (Cert.ReferenceIdeal.Read.val_main_v10_apply _ i)).symm
  show _ * (_ - _) = _ * (_ - _)
  refine congr (congrArg _ ?_) (congr (congrArg _ ?_) ?_)
  · rfl
  · exact (congrFun (interleave_sitofp (F := Ideal) bcast_S4096x2048_S4096x2048x1_0_1 concatenates_S4096x2048x1_S4096x2048x1_S4096x2048x2_d2
      shapeCasts_S4096x2048x2_S4096x4096 (andi (m ((c : Thread nD τ).loc main_arg1)) (broadcastInDim S4096x2048 ![] bcast_S_S4096x2048 (constantI S_ 32 15#32))) (andi (Host.shrsi (m ((c : Thread nD τ).loc main_arg1)) (broadcastInDim S4096x2048 ![] bcast_S_S4096x2048 (constantI S_ 32 4#32))) (broadcastInDim S4096x2048 ![] bcast_S_S4096x2048 (constantI S_ 32 15#32)))) i).trans rfl
  · rfl

/-- Entry (a, b, o) of the kernel's result: the inner product over all 4096 columns of row (a, b) of the activations
    with row o of the dequantized weights, plus entry o of the dequantized bias — the reshape at both ends of the
    region only renames row a * 2048 + b of the flattened activations. -/
theorem result_apply (c : Dev nD) (a : Fin 8) (b : Fin 2048) (o : Fin 4096) :
    shapeCast S8x2048x4096 (outArr m c) shapeCasts_S16384x4096_S8x2048x4096 (ix3 a b o)
      = (∑ k : Fin 4096, xin m c (ix3 a b k) * Cert.ReferenceIdeal.Read.val_main_v14 (F := Ideal) (pwin m c) (ix2 o k))
        + Cert.ReferenceIdeal.Read.val_main_v17 (F := Ideal) (qbin m c) (ix1 o) := by
  have ha := a.isLt
  have hb := b.isLt
  have ho := o.isLt
  have hr : a.val * 2048 + b.val < 16384 := by omega
  rw [shapeCast_apply (outArr m c) shapeCasts_S16384x4096_S8x2048x4096 (ix3 a b o) (ix2 ⟨a.val * 2048 + b.val, hr⟩ o)
    (by rw [Shape.rowMajor_val_two, Shape.rowMajor_val_three]; rfl)]
  show outAt m c (a.val * 2048 + b.val) o.val = _
  unfold outAt
  rw [dotUpTo_full _ _ _ _ hr ho, at2_of_lt _ _ _ (by omega) ho, warr_eq, barr_eq, xarr_eq]
  refine congr (congrArg _ (Finset.sum_congr rfl fun k _ => ?_)) ?_
  · refine congrArg (· * _) ?_
    exact shapeCast_apply _ shapeCasts_S8x2048x4096_S16384x4096 (ix2 ⟨a.val * 2048 + b.val, hr⟩ k) (ix3 a b k)
      (by rw [Shape.rowMajor_val_two, Shape.rowMajor_val_three]; rfl)
  · exact shapeCast_a_1a_apply _ shapeCasts_S4096_S1x4096 (0 : Fin 1) o

end Cert.Bridge

end
-- ==== Proof.lean ====
/-
  Quantized linear layer: the blocked kernel against the einsum reference, over the extended reals.

  out = x . W^T + bias with x of 8 x 2048 x 4096 floats, W the 4096 x 4096 weights dequantized from int4 nibbles
  packed two to a word, bias dequantized from int32.  The kernel flattens x to 16384 x 4096 and walks a
  32 x 2 x 8 grid; along the last grid axis it accumulates the products of 512-column stretches in a scratch block
  and on the last stretch adds the bias and writes a 512 x 2048 block of the result.  The reference contracts all
  4096 columns at once.  Addition of extended reals is commutative and associative, so the stretches' partial sums
  add up to the reference's sum whatever the inputs hold; the precondition is not used.

  Frames: the two kernel programs' are the generated frame certificates; the reference has no kernel and its frame
  is its run with the result dropped.  The idealization rewrote nothing, so there is nothing to preserve.
-/
import proofs.«423810_j20555713479187_2_alg».proof.Defs
import proofs.«423810_j20555713479187_2_alg».proof.Proof.Gen.Kernel
import proofs.«423810_j20555713479187_2_alg».proof.Proof.Gen.Kernel.Frame
import proofs.«423810_j20555713479187_2_alg».proof.Proof.Gen.KernelIdeal
import proofs.«423810_j20555713479187_2_alg».proof.Proof.Gen.KernelIdeal.Frame
import proofs.«423810_j20555713479187_2_alg».proof.Proof.Gen.ReferenceIdeal
import proofs.«423810_j20555713479187_2_alg».proof.Proof.Gen.ReferenceIdeal.Run
import proofs.«423810_j20555713479187_2_alg».proof.Proof.Gen.ReferenceIdeal.Read
import proofs.«423810_j20555713479187_2_alg».proof.Proof.Gen.Pre_finite_inputs
import proofs.«423810_j20555713479187_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments, the kernel's result (the reshaped product matrix with the bias
    added) and the reference's are the same array: entry by entry both are the full inner product plus the bias
    entry. -/
theorem algebraic : Cert.algebraic_KernelIdeal_ReferenceIdeal := by
  intro m ρ m' ρ' _ hagree
  refine ⟨fun c => shapeCast Cert.KernelIdeal.S8x2048x4096 (Cert.KernelIdeal.Acc.outArr m c)
      Cert.KernelIdeal.Facts₀.shapeCasts_S16384x4096_S8x2048x4096, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2]
  funext i
  obtain ⟨a, b, o, rfl⟩ : ∃ (a : Fin 8) (b : Fin 2048) (o : Fin 4096), i = ix3 a b o :=
    ⟨i 0, i 1, i 2, eq_ix3 (n0 := 8) (n1 := 2048) (n2 := 4096) i⟩
  exact (Cert.ReferenceIdeal.Entry.result_apply _ _ _ a b o).trans (Cert.Bridge.result_apply m c a b o).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
